-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8 : Shape := ⟨2, ![8192, 8]⟩
abbrev S8192 : Shape := ⟨1, ![8192]⟩
abbrev S64x8192 : Shape := ⟨2, ![64, 8192]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_

variable [Facts]

def fn {F : FTy → Type} [FloatOps F] (main_arg0 : FVec F S8192x8 .f32) (main_arg1 : IVec S8192 32) (main_arg2 : IVec S8192x8 32) (main_arg3 : FVec F S64x8192 .f32) : IVec S_ 1 :=
  let main_v0 : FVec F S8192x8 .f32 := Host.absf main_arg0
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  let main_v4 : FVec F S64x8192 .f32 := Host.absf main_arg3
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  main_v8
-- ==== Kernel.lean ====
abbrev S8192x8 : Shape := ⟨2, ![8192, 8]⟩
abbrev S8192 : Shape := ⟨1, ![8192]⟩
abbrev S64x8192 : Shape := ⟨2, ![64, 8192]⟩
abbrev S8192x1 : Shape := ⟨2, ![8192, 1]⟩
abbrev S8192x8192 : Shape := ⟨2, ![8192, 8192]⟩
abbrev S1024x8 : Shape := ⟨2, ![1024, 8]⟩
abbrev S1024x1 : Shape := ⟨2, ![1024, 1]⟩
abbrev S64x2048 : Shape := ⟨2, ![64, 2048]⟩
abbrev S1024x2048 : Shape := ⟨2, ![1024, 2048]⟩
abbrev S1024x64 : Shape := ⟨2, ![1024, 64]⟩
abbrev S1024 : Shape := ⟨1, ![1024]⟩
abbrev S1x8 : Shape := ⟨2, ![1, 8]⟩
abbrev S8 : Shape := ⟨1, ![8]⟩
abbrev S1024x8x1 : Shape := ⟨3, ![1024, 8, 1]⟩
abbrev S1x1x8 : Shape := ⟨3, ![1, 1, 8]⟩
abbrev S1024x8x8 : Shape := ⟨3, ![1024, 8, 8]⟩

abbrev nBuf : Space → Nat
  | .hbm => 6
  | .vmem => 11
  | .smem => 0
  | _ => 0

abbrev bufTy : (tb : Table) → Fin (tcTables nBuf tb) → BufTy
  | .hbm, ⟨0, _⟩ => ⟨S8192x8, .f32⟩
  | .hbm, ⟨1, _⟩ => ⟨S8192, .i32⟩
  | .hbm, ⟨2, _⟩ => ⟨S8192x8, .i32⟩
  | .hbm, ⟨3, _⟩ => ⟨S64x8192, .f32⟩
  | .hbm, ⟨4, _⟩ => ⟨S8192x1, .i32⟩
  | .hbm, ⟨5, _⟩ => ⟨S8192x8192, .f32⟩
  | .local _ .vmem, ⟨0, _⟩ => ⟨S1024x8, .i32⟩
  | .local _ .vmem, ⟨1, _⟩ => ⟨S1024x8, .i32⟩
  | .local _ .vmem, ⟨2, _⟩ => ⟨S1024x8, .f32⟩
  | .local _ .vmem, ⟨3, _⟩ => ⟨S1024x8, .f32⟩
  | .local _ .vmem, ⟨4, _⟩ => ⟨S1024x1, .i32⟩
  | .local _ .vmem, ⟨5, _⟩ => ⟨S1024x1, .i32⟩
  | .local _ .vmem, ⟨6, _⟩ => ⟨S64x2048, .f32⟩
  | .local _ .vmem, ⟨7, _⟩ => ⟨S64x2048, .f32⟩
  | .local _ .vmem, ⟨8, _⟩ => ⟨S1024x2048, .f32⟩
  | .local _ .vmem, ⟨9, _⟩ => ⟨S1024x2048, .f32⟩
  | .local _ .vmem, ⟨10, _⟩ => ⟨S1024x64, .bf16⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192_S8192x1 : S8192.ShapeCasts S8192x1
  inb_S1024x8_S1024x8_0_0 : ∀ a, (![0, 0] : Fin 2 → Nat) a + S1024x8.size a ≤ S1024x8.size a
  h_S1024x8 : 0 < S1024x8.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1_S1024 : S1024x1.ShapeCasts S1024
  iota_S1x8_d1_w32 : S1x8.Iotas .tc 32 [1]
  shapeCasts_S1x8_S8 : S1x8.ShapeCasts S8
  shapeCasts_S1024x8_S1024x8x1 : S1024x8.ShapeCasts S1024x8x1
  shapeCasts_S8_S1x1x8 : S8.ShapeCasts S1x1x8
  broadcasts_S1024x8x1_S1024x8x8 : S1024x8x1.Broadcasts S1024x8x8
  broadcasts_S1x1x8_S1024x8x8 : S1x1x8.Broadcasts S1024x8x8
  shapeCasts_S1024_S1024x1 : S1024.ShapeCasts S1024x1
  shapeCasts_S8_S1x8 : S8.ShapeCasts S1x8
  broadcasts_S1024x1_S1024x8 : S1024x1.Broadcasts S1024x8
  broadcasts_S1x8_S1024x8 : S1x8.Broadcasts S1024x8
  shapeCasts_S1024x8x8_S1024x64 : S1024x8x8.ShapeCasts S1024x64
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S8192x8.size a
  hwx0_0 : ∀ i : grid0.Coords, EltTy.bits .i32 = 32 ∨ (Rect.block (s := S8192x8) S1024x8.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S8192x8.size a
  hwx0_1 : ∀ i : grid0.Coords, EltTy.bits .f32 = 32 ∨ (Rect.block (s := S8192x8) S1024x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x8192.size a
  hwx0_3 : ∀ i : grid0.Coords, EltTy.bits .f32 = 32 ∨ (Rect.block (s := S64x8192) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x8192.size a
  hwx0_4 : ∀ i : grid0.Coords, EltTy.bits .f32 = 32 ∨ (Rect.block (s := S8192x8192) S1024x2048.size (cc0_transform_4 i) (hinb0_4 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg2) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x8 : Shape := ⟨2, ![8192, 8]⟩
abbrev S8192 : Shape := ⟨1, ![8192]⟩
abbrev S64x8192 : Shape := ⟨2, ![64, 8192]⟩
abbrev S8 : Shape := ⟨1, ![8]⟩
abbrev S_ : Shape := ⟨0, ![]⟩
abbrev S8192x8x1 : Shape := ⟨3, ![8192, 8, 1]⟩
abbrev S1x1x8 : Shape := ⟨3, ![1, 1, 8]⟩
abbrev S8192x8x8 : Shape := ⟨3, ![8192, 8, 8]⟩
abbrev S8192x1 : Shape := ⟨2, ![8192, 1]⟩
abbrev S1x8 : Shape := ⟨2, ![1, 8]⟩
abbrev S8192x64 : Shape := ⟨2, ![8192, 64]⟩
abbrev S8192x8192 : Shape := ⟨2, ![8192, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8192, .i32⟩
  | .hbm, ⟨2, _⟩ => ⟨S8192x8, .i32⟩
  | .hbm, ⟨3, _⟩ => ⟨S64x8192, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S8192x8x1, .i32⟩
  | .hbm, ⟨9, _⟩ => ⟨S1x1x8, .i32⟩
  | .hbm, ⟨10, _⟩ => ⟨S8192x8x8, .i32⟩
  | .hbm, ⟨11, _⟩ => ⟨S8192x8x8, .i32⟩
  | .hbm, ⟨12, _⟩ => ⟨S8192x8x8, .i32⟩
  | .hbm, ⟨13, _⟩ => ⟨S_, .i32⟩
  | .hbm, ⟨14, _⟩ => ⟨S8192x8x8, .i32⟩
  | .hbm, ⟨15, _⟩ => ⟨S8192x8x8, .i32⟩
  | .hbm, ⟨16, _⟩ => ⟨S8192x8x8, .f32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8192x1, .i32⟩
  | .hbm, ⟨22, _⟩ => ⟨S1x8, .i32⟩
  | .hbm, ⟨23, _⟩ => ⟨S8192x8, .i32⟩
  | .hbm, ⟨24, _⟩ => ⟨S8192x8, .i32⟩
  | .hbm, ⟨25, _⟩ => ⟨S8192x8, .i32⟩
  | .hbm, ⟨26, _⟩ => ⟨S_, .i32⟩
  | .hbm, ⟨27, _⟩ => ⟨S8192x8, .i32⟩
  | .hbm, ⟨28, _⟩ => ⟨S8192x8, .i32⟩
  | .hbm, ⟨29, _⟩ => ⟨S8192x8, .f32⟩
  | .hbm, ⟨30, _⟩ => ⟨S8192x8x1, .f32⟩
  | .hbm, ⟨31, _⟩ => ⟨S8192x8x1, .f32⟩
  | .hbm, ⟨32, _⟩ => ⟨S8192x8x8, .f32⟩
  | .hbm, ⟨33, _⟩ => ⟨S8192x8x8, .f32⟩
  | .hbm, ⟨34, _⟩ => ⟨S8192x8x8, .f32⟩
  | .hbm, ⟨35, _⟩ => ⟨S8192x8x8, .f32⟩
  | .hbm, ⟨36, _⟩ => ⟨S8192x64, .f32⟩
  | .hbm, ⟨37, _⟩ => ⟨S8192x8192, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8192x8_S8192x8x1_0_1 : S8192x8.BroadcastsInDim S8192x8x1 (![0, 1] : Fin 2 → Fin S8192x8x1.rank)
  bcast_S8_S1x1x8_2 : S8.BroadcastsInDim S1x1x8 (![2] : Fin 1 → Fin S1x1x8.rank)
  bcast_S8192x8x1_S8192x8x8_0_1_2 : S8192x8x1.BroadcastsInDim S8192x8x8 (![0, 1, 2] : Fin 3 → Fin S8192x8x8.rank)
  bcast_S1x1x8_S8192x8x8_0_1_2 : S1x1x8.BroadcastsInDim S8192x8x8 (![0, 1, 2] : Fin 3 → Fin S8192x8x8.rank)
  bcast_S_S8192x8x8 : S_.BroadcastsInDim S8192x8x8 (![] : Fin 0 → Fin S8192x8x8.rank)
  bcast_S8192_S8192x1_0 : S8192.BroadcastsInDim S8192x1 (![0] : Fin 1 → Fin S8192x1.rank)
  bcast_S8_S1x8_1 : S8.BroadcastsInDim S1x8 (![1] : Fin 1 → Fin S1x8.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  shapeCasts_S8192x8x8_S8192x64 : S8192x8x8.ShapeCasts S8192x64
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.BlockReads.lean ====
/-
  The blocks the body is given, read at an index of their arrays.

  The grid has 8 × 4 points, run row by row: point `t` has row coordinate `t / 4` and column coordinate `t % 4`.  The
  three quantization windows (weight words, scales, the offset column) follow the row coordinate: at point `t` their
  blocks are rows `1024·(t/4) …` of their arrays.  The activation window follows the column coordinate: its block is
  columns `2048·(t%4) …`.  The output window follows both.  The offset column is the `[8192]` offset vector viewed as
  `[8192, 1]`, which the program's one host operation writes before the launch.
-/
import proofs.«416559_j60739427501066_1_alg».proof.Proof.Gen.KernelIdeal.Value
import proofs.«416559_j60739427501066_1_alg».proof.Proof.LibLayoutColumn
import Idealize.ShloMosaic.Lib.Pipeline.Value
import Idealize.ShloMosaic.Lib.StableHlo.Run
import Idealize.ShloMosaic.Lib.ValueIdx

noncomputable section

namespace Cert.KernelIdeal.BlockValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The four argument arrays as launched, on core `c`. -/
abbrev scaleArr (c : Dev nD) : FVec Ideal S8192x8 .f32 := m ((c : Thread nD τ).loc main_arg0)
abbrev offsetArr (c : Dev nD) : IVec S8192 32 := m ((c : Thread nD τ).loc main_arg1)
abbrev weightArr (c : Dev nD) : IVec S8192x8 32 := m ((c : Thread nD τ).loc main_arg2)
abbrev actArr (c : Dev nD) : FVec Ideal S64x8192 .f32 := m ((c : Thread nD τ).loc main_arg3)

/-- The blocks the body is given at point `t`, at their literal shapes. -/
abbrev wblk (c : Dev nD) (t : Fin cfg0.N) : IVec S1024x8 32 := iblk m c 0 t
abbrev sblk (c : Dev nD) (t : Fin cfg0.N) : FVec Ideal S1024x8 .f32 := iblk m c 1 t
abbrev oblk (c : Dev nD) (t : Fin cfg0.N) : IVec S1024x1 32 := iblk m c 2 t
abbrev ablk (c : Dev nD) (t : Fin cfg0.N) : FVec Ideal S64x2048 .f32 := iblk m c 3 t

/-- Row `p` of row block `i`, as a row of the whole `8192`-row arrays (for `i < 8` it is `1024·i + p`). -/
def rowOf (i : ℕ) (p : Fin 1024) : Fin 8192 := ⟨(1024 * i + p.val) % 8192, Nat.mod_lt _ (by decide)⟩

/-- Column `q` of column block `j`, as a column of the whole `8192`-column arrays (for `j < 4` it is `2048·j + q`). -/
def colOf (j : ℕ) (q : Fin 2048) : Fin 8192 := ⟨(2048 * j + q.val) % 8192, Nat.mod_lt _ (by decide)⟩

/-- The printed index maps, decided over the 32 points: which block each window is on at point `t`. -/
theorem index_facts : ∀ t : Fin cfg0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = t.val % 4 :=
  (by decide +kernel : ∀ t : Fin grid0.N, _)

theorem point_lt (t : Fin cfg0.N) : t.val < 32 := lt_of_lt_of_eq t.isLt (show cfg0.N = 32 from N_0)

/-- The weight block at point `t` is rows `1024·(t/4) …` of the weight words. -/
theorem wblk_apply (c : Dev nD) (t : Fin cfg0.N) (p : Fin 1024) (g : Fin 8) :
    wblk m c t (ix2 p g) = weightArr m c (ix2 (rowOf (t.val / 4) p) g) := by
  obtain ⟨e0, e1, -⟩ := index_facts t
  have hp := p.isLt
  have ht := point_lt t
  show ((cfg0.win 0).blk t).view.read (Elt Ideal) (V m c (Pipeline.arrRef spec0 0)) (ix2 p g) = _
  rw [View.read_apply]
  show V m c main_arg2 (((cfg0.win 0).blk t).view.emb (ix2 p g)) = m ((c : Thread nD τ).loc main_arg2) (ix2 (rowOf (t.val / 4) p) g)
  rw [V_main_arg2]
  refine congrArg _ (funext fun a => Fin.ext ?_)
  match a with
  | ⟨0, _⟩ => show win0_0.index t (0 : Fin 2) * 1024 + 1 * p.val = (1024 * (t.val / 4) + p.val) % 8192; rw [e0]; omega
  | ⟨1, _⟩ => show win0_0.index t (1 : Fin 2) * 8 + 1 * g.val = g.val; rw [e1]; omega

/-- The scale block at point `t` is rows `1024·(t/4) …` of the scales. -/
theorem sblk_apply (c : Dev nD) (t : Fin cfg0.N) (p : Fin 1024) (g : Fin 8) :
    sblk m c t (ix2 p g) = scaleArr m c (ix2 (rowOf (t.val / 4) p) g) := by
  obtain ⟨-, -, e0, e1, -⟩ := index_facts t
  have hp := p.isLt
  have ht := point_lt t
  show ((cfg0.win 1).blk t).view.read (Elt Ideal) (V m c (Pipeline.arrRef spec0 1)) (ix2 p g) = _
  rw [View.read_apply]
  show V m c main_arg0 (((cfg0.win 1).blk t).view.emb (ix2 p g)) = m ((c : Thread nD τ).loc main_arg0) (ix2 (rowOf (t.val / 4) p) g)
  rw [V_main_arg0]
  refine congrArg _ (funext fun a => Fin.ext ?_)
  match a with
  | ⟨0, _⟩ => show win0_1.index t (0 : Fin 2) * 1024 + 1 * p.val = (1024 * (t.val / 4) + p.val) % 8192; rw [e0]; omega
  | ⟨1, _⟩ => show win0_1.index t (1 : Fin 2) * 8 + 1 * g.val = g.val; rw [e1]; omega

/-- The offset column, as the launch finds it: the offset vector viewed as one column. -/
theorem offset_column (c : Dev nD) :
    (V m c main_v0 : IVec S8192x1 32) = shapeCast S8192x1 (offsetArr m c) shapeCasts_S8192_S8192x1 := by
  dsimp only [V, hostOps0]
  after_results
  rfl

/-- The offset block at point `t` is rows `1024·(t/4) …` of the offset vector. -/
theorem oblk_apply (c : Dev nD) (t : Fin cfg0.N) (p : Fin 1024) :
    oblk m c t (ix2 p (0 : Fin 1)) = offsetArr m c (ix1 (rowOf (t.val / 4) p)) := by
  obtain ⟨-, -, -, -, e0, e1, -⟩ := index_facts t
  have hp := p.isLt
  have ht := point_lt t
  show ((cfg0.win 2).blk t).view.read (Elt Ideal) (V m c (Pipeline.arrRef spec0 2)) (ix2 p (0 : Fin 1)) = _
  rw [View.read_apply]
  show (V m c main_v0 : IVec S8192x1 32) (((cfg0.win 2).blk t).view.emb (ix2 p (0 : Fin 1))) = _
  have e : ((cfg0.win 2).blk t).view.emb (ix2 p (0 : Fin 1)) = ix2 (rowOf (t.val / 4) p) (0 : Fin 1) :=
    funext fun a => Fin.ext (by
      match a with
      | ⟨0, _⟩ => show win0_2.index t (0 : Fin 2) * 1024 + 1 * p.val = (1024 * (t.val / 4) + p.val) % 8192; rw [e0]; omega
      | ⟨1, _⟩ => show win0_2.index t (1 : Fin 2) * 1 + 1 * 0 = 0; rw [e1])
  rw [offset_column, e, shapeCast_a_a1_apply]

/-- The activation block at point `t` is columns `2048·(t%4) …` of the activation. -/
theorem ablk_apply (c : Dev nD) (t : Fin cfg0.N) (k : Fin 64) (q : Fin 2048) :
    ablk m c t (ix2 k q) = actArr m c (ix2 k (colOf (t.val % 4) q)) := by
  obtain ⟨-, -, -, -, -, -, e0, e1, -⟩ := index_facts t
  have hq := q.isLt
  have ht := point_lt t
  show ((cfg0.win 3).blk t).view.read (Elt Ideal) (V m c (Pipeline.arrRef spec0 3)) (ix2 k q) = _
  rw [View.read_apply]
  show V m c main_arg3 (((cfg0.win 3).blk t).view.emb (ix2 k q)) = m ((c : Thread nD τ).loc main_arg3) (ix2 k (colOf (t.val % 4) q))
  rw [V_main_arg3]
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 2048 + 1 * q.val = (2048 * (t.val % 4) + q.val) % 8192; rw [e1]; omega

end Cert.KernelIdeal.BlockValue

end
-- ==== Proof.CasePieces.lean ====
/-
  What one run of the kernel body leaves behind, in each of its two cases, as values of the blocks it was given.

  Where the grid's column coordinate is zero (case A) the body stores the dequantized block of its three quantization
  blocks into the scratch, reads the scratch back, and stores the product of what it read with the activation block into
  the output block.  Elsewhere (case B) it leaves the scratch alone and stores the product of the scratch AS IT FOUND IT
  with the activation block.  Each buffer ends holding one whole-block store's payload, and each load reads a whole
  buffer, so the pieces read back are the payloads themselves.  These hold at any float instance.
-/
import proofs.«416559_j60739427501066_1_alg».proof.Proof.Gen.KernelIdeal.Frame
import Idealize.ShloMosaic.Lib.Pipeline.Value
import Idealize.ShloMosaic.Lib.Tactic

noncomputable section

namespace Cert.KernelIdeal.BlockValue

open Cert.KernelIdeal Cert.KernelIdeal.Gen Idealize.ShloMosaic Idealize.ShloMosaic.TcCoe Idealize.SL.Sem

variable {F : FTy → Type} [FloatOps F]

/-- Every access of the body starts at the origin of its buffer. -/
theorem origin : (![0, 0] : Fin 2 → Nat) = fun _ => 0 := funext fun a => by fin_cases a <;> rfl

/-- CASE A, the scratch: it ends holding the dequantized block of the point's weight, scale and offset blocks. -/
theorem scratch_A (c : Dev nD) (i : grid0.Coords) (a2 : Memref sig .tc .vmem S1024x8 .i32) (h2 : a2.IsWhole) (a3 : Memref sig .tc .vmem S1024x8 .f32) (h3 : a3.IsWhole) (a4 : Memref sig .tc .vmem S1024x1 .i32) (h4 : a4.IsWhole) (a5 : Memref sig .tc .vmem S64x2048 .f32) (h5 : a5.IsWhole) (a6 : Memref sig .tc .vmem S1024x2048 .f32) (h6 : a6.IsWhole) (a7 : Memref sig .tc .vmem S1024x64 .bf16) (h7 : a7.IsWhole) (hc : cond0_0 i)
    (x0 : Vec F S1024x8 .i32) (x1 : Vec F S1024x8 .f32) (x2 : Vec F S1024x1 .i32) (x3 : Vec F S64x2048 .f32) :
    sout0_A_0 c i a2 h2 a3 h3 a4 h4 a5 h5 a6 h6 a7 h7 hc x0 x1 x2 x3 = k0_pay1 x0 x1 x2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero origin]
  simp only [View.readAt_eq_ld, h2.read_unread, h3.read_unread, h4.read_unread, View.ld_unit_zero (S := S1024x8) origin,
    View.ld_unit_zero (S := S1024x1) origin]

/-- CASE A, the output block: the product of that same dequantized block (read back from the scratch) with the activation block. -/
theorem out_A (c : Dev nD) (i : grid0.Coords) (a2 : Memref sig .tc .vmem S1024x8 .i32) (h2 : a2.IsWhole) (a3 : Memref sig .tc .vmem S1024x8 .f32) (h3 : a3.IsWhole) (a4 : Memref sig .tc .vmem S1024x1 .i32) (h4 : a4.IsWhole) (a5 : Memref sig .tc .vmem S64x2048 .f32) (h5 : a5.IsWhole) (a6 : Memref sig .tc .vmem S1024x2048 .f32) (h6 : a6.IsWhole) (a7 : Memref sig .tc .vmem S1024x64 .bf16) (h7 : a7.IsWhole) (hc : cond0_0 i)
    (x0 : Vec F S1024x8 .i32) (x1 : Vec F S1024x8 .f32) (x2 : Vec F S1024x1 .i32) (x3 : Vec F S64x2048 .f32) :
    out0_A_4 c i a2 h2 a3 h3 a4 h4 a5 h5 a6 h6 a7 h7 hc x0 x1 x2 x3 = k0_pay2 (k0_pay1 x0 x1 x2) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero origin]
  simp only [View.readAt_eq_ld, h2.read_unread, h3.read_unread, h4.read_unread, h5.read_unread,
    View.readCov_unit_zero (S := S1024x64) _ origin, View.ld_unit_zero (S := S1024x8) origin,
    View.ld_unit_zero (S := S1024x1) origin, View.ld_unit_zero (S := S64x2048) origin]

/-- CASE B, the output block: the product of the scratch as the point before left it with the activation block. -/
theorem out_B (c : Dev nD) (i : grid0.Coords) (a2 : Memref sig .tc .vmem S1024x8 .i32) (h2 : a2.IsWhole) (a3 : Memref sig .tc .vmem S1024x8 .f32) (h3 : a3.IsWhole) (a4 : Memref sig .tc .vmem S1024x1 .i32) (h4 : a4.IsWhole) (a5 : Memref sig .tc .vmem S64x2048 .f32) (h5 : a5.IsWhole) (a6 : Memref sig .tc .vmem S1024x2048 .f32) (h6 : a6.IsWhole) (a7 : Memref sig .tc .vmem S1024x64 .bf16) (h7 : a7.IsWhole) (hc : ¬cond0_0 i)
    (x0 : Vec F S1024x8 .i32) (x1 : Vec F S1024x8 .f32) (x2 : Vec F S1024x1 .i32) (x3 : Vec F S64x2048 .f32) (xs0 : Vec F S1024x64 .bf16) :
    out0_B_4 c i a2 h2 a3 h3 a4 h4 a5 h5 a6 h6 a7 h7 hc x0 x1 x2 x3 xs0 = k0_pay2 xs0 x3 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  sl_unfold_words
  rw [View.canon_unit_zero origin]
  simp only [View.readAt_eq_ld, h7.read_unread, h5.read_unread, View.ld_unit_zero (S := S1024x64) origin,
    View.ld_unit_zero (S := S64x2048) origin]

end Cert.KernelIdeal.BlockValue

end
-- ==== Proof.ProductPayload.lean ====
/-
  The body's matrix product, read at an index.

  The output block's payload is a `[1024, 64] × [64, 2048]` product into a zero accumulator, its right operand the
  activation block narrowed to bf16.  Over the extended reals the narrowing is the identity and the zero accumulator
  adds nothing, so entry `(p, q)` is the sum over the 64 contraction positions `k` of left `(p, k)` times right `(k, q)`.
-/
import proofs.«416559_j60739427501066_1_alg».proof.Proof.Gen.KernelIdeal.Skeleton
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The left operand's row is the output's row, -/
theorem lhs_row (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl

/-- its column the contraction position; -/
theorem lhs_col (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q

/-- the right operand's row is the contraction position, -/
theorem rhs_row (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q

/-- its column the output's column. -/
theorem rhs_col (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- Entry `(p, q)` of the product the body stores: the 64-term sum of left `(p, k)` times right `(k, q)`. -/
theorem product_payload_apply (X : FVec Ideal S1024x64 .bf16) (A : FVec Ideal S64x2048 .f32) (p : Fin 1024) (q : Fin 2048) :
    k0_pay2 (F := Ideal) X A (ix2 p q) = ∑ k : Fin 64, X (ix2 p k) * A (ix2 k q) := by
  unfold k0_pay2
  show FloatOps.matmul dot_S1024x64_S64x2048_S1024x2048_1_0_0_1_n_n none X (truncf .bf16 A bitsLt_bf16_f32) (constant S1024x2048 .f32 0x00000000#32) (ix2 p q) = _
  rw [Ideal.matmul_constant_zero_apply, ← Equiv.sum_comp (ValueIdx.contrEquiv1 dot_S1024x64_S64x2048_S1024x2048_1_0_0_1_n_n 64 rfl rfl).symm]
  refine Finset.sum_congr rfl fun k _ => ?_
  have hk := ValueIdx.contrEquiv1_symm_val dot_S1024x64_S64x2048_S1024x2048_1_0_0_1_n_n 64 rfl rfl k
  have el : dot_S1024x64_S64x2048_S1024x2048_1_0_0_1_n_n.lhsIdx (ix2 p q) ((ValueIdx.contrEquiv1 dot_S1024x64_S64x2048_S1024x2048_1_0_0_1_n_n 64 rfl rfl).symm k) = ix2 p k := funext fun a => Fin.ext (by
    match a with
    | ⟨0, _⟩ => exact lhs_row _ _
    | ⟨1, _⟩ => exact (lhs_col _ _).trans hk)
  have er : dot_S1024x64_S64x2048_S1024x2048_1_0_0_1_n_n.rhsIdx (ix2 p q) ((ValueIdx.contrEquiv1 dot_S1024x64_S64x2048_S1024x2048_1_0_0_1_n_n 64 rfl rfl).symm k) = ix2 k q := funext fun a => Fin.ext (by
    match a with
    | ⟨0, _⟩ => exact (rhs_row _ _).trans hk
    | ⟨1, _⟩ => exact rhs_col _ _)
  rw [el, er]
  rfl

end Cert.KernelIdeal.BlockValue

end
-- ==== Proof.Nibbles.lean ====
/-
  What both programs compute, written once, over the extended reals.

  Each 32-bit word packs eight 4-bit fields; field `n` of a word `w` is `(w >> 4·n) & 15` (an arithmetic shift, the shift
  amount itself computed on 32-bit words).  Row `r` of the quantized matrix has eight weight words, one per group, eight
  scales, one per group, and ONE offset word whose field `g` is group `g`'s zero point.  The dequantized entry at row `r`,
  column `k` — group `g = k / 8`, field `v = k % 8` — is `scale[r, g] · (field v of weight[r, g] − field g of offset[r])`, and
  the result is the dequantized `[8192, 64]` matrix times the `[64, 8192]` activation: a sum of 64 products per entry.
-/
import Idealize.ShloMosaic.PureOps.Ideal
import Idealize.ShloMosaic.Lib.ValueIdx

noncomputable section

open scoped BigOperators

namespace Cert.Int4

open Idealize.ShloMosaic Idealize.ShloMosaic.ValueIdx

/-- The shift that brings field `n` of a word down to its low four bits: `n · 4`, a product of 32-bit words. -/
def shiftOf (n : ℕ) : BitVec 32 := IntOp.muli (BitVec.ofNat 32 n) 4#32

/-- Field `n` of the word `w`, as an extended real: shift right arithmetically by `4·n`, keep the low four bits, convert. -/
def nibble (w : BitVec 32) (n : ℕ) : Ideal .f32 :=
  FloatOps.sitofp .f32 (IntOp.andi (IntOp.shrsi .vector w (shiftOf n)) 15#32)

/-- One dequantized entry: the group's scale times (the weight word's field `v` less the offset word's field `g`). -/
def dequant (s : Ideal .f32) (w o : BitVec 32) (g v : ℕ) : Ideal .f32 := s * (nibble w v - nibble o g)

/-- Entry `(r, k)` of the dequantized `[8192, 64]` matrix: group `k / 8`, field `k % 8`. -/
def dq (scale : (⟨2, ![8192, 8]⟩ : Shape).Idx → Ideal .f32) (offset : (⟨1, ![8192]⟩ : Shape).Idx → BitVec 32)
    (weight : (⟨2, ![8192, 8]⟩ : Shape).Idx → BitVec 32) (r : Fin 8192) (k : Fin 64) : Ideal .f32 :=
  dequant (scale (ix2 r (⟨k.val / 8, by have := k.isLt; omega⟩ : Fin 8)))
    (weight (ix2 r (⟨k.val / 8, by have := k.isLt; omega⟩ : Fin 8))) (offset (ix1 r)) (k.val / 8) (k.val % 8)

/-- THE RESULT: entry `(r, c)` is the sum over the 64 columns `k` of the dequantized row `r` against activation column `c`. -/
def result (scale : (⟨2, ![8192, 8]⟩ : Shape).Idx → Ideal .f32) (offset : (⟨1, ![8192]⟩ : Shape).Idx → BitVec 32)
    (weight : (⟨2, ![8192, 8]⟩ : Shape).Idx → BitVec 32) (act : (⟨2, ![64, 8192]⟩ : Shape).Idx → Ideal .f32) :
    (⟨2, ![8192, 8192]⟩ : Shape).Idx → Ideal .f32 :=
  fun i => ∑ k : Fin 64, dq scale offset weight (i 0) k * act (ix2 k (i 1))

end Cert.Int4

end
-- ==== Proof.LibTrailingAxis.lean ====
/-
  Layout operations around a trailing axis, read at an index: the forms an "unpack each word into its fields" computation
  meets.

  A matrix `[a, b]` is given a trailing unit axis and broadcast along it to `[a, b, c]` (every field of a word sees the
  word); a vector `[c]` is placed under two leading unit axes and broadcast to `[a, b, c]` (every word sees the same
  per-field vector); an `[a, 1]` column is flattened to a vector; and an `[a, 8, 8]` array is flattened to `[a, 64]`, column
  `k` being field `k % 8` of group `k / 8`.  A cast reads the operand at the index with the same row-major position, a
  broadcast at the index with the unit axes at zero.  Every statement but the last holds at any extents.
-/
import Idealize.ShloMosaic.Lib.ValueIdx
import Idealize.ShloMosaic.Lib.Pipeline.Value

noncomputable section

namespace Idealize.ShloMosaic.ValueIdx

open Idealize.ShloMosaic

variable {α : Type}

/-- An `[a, 1]` column cast to `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` matrix cast to `[a, b, 1]` reads, at `(p, g, u)`, the matrix at `(p, g)`. -/
theorem shapeCast_ab_ab1_apply {a b : ℕ} (x : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ x h (ix3 p g u) = x (ix2 p g) :=
  shapeCast_apply x h _ _ (by
    have hu : u.val = 0 := by omega
    rw [Shape.rowMajor_val_three, Shape.rowMajor_val_two]
    show p.val * b + g.val = (p.val * b + g.val) * 1 + u.val
    rw [hu, Nat.mul_one, Nat.add_zero])

/-- An `[a, b, 1]` array broadcast to `[a, b, c]` reads, at `(p, g, v)`, the operand at `(p, g, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (g : Fin b) (v : Fin c) :
    broadcastTo ⟨3, ![a, b, c]⟩ x h (ix3 p g v) = x (ix3 p g (0 : Fin 1)) := by
  refine broadcastTo_apply x h (ix3 p g v) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- A `[c]` vector cast to `[1, 1, c]` reads, at `(u, w, v)`, the vector at `v`. -/
theorem shapeCast_c_11c_apply {c : ℕ} (x : (⟨1, ![c]⟩ : Shape).Idx → α)
    (h : (⟨1, ![c]⟩ : Shape).ShapeCasts ⟨3, ![1, 1, c]⟩) (u w : Fin 1) (v : Fin c) :
    shapeCast ⟨3, ![1, 1, c]⟩ x h (ix3 u w v) = x (ix1 v) :=
  shapeCast_apply x h _ _ (by
    have hu : u.val = 0 := by omega
    have hw : w.val = 0 := by omega
    rw [Shape.rowMajor_val_three, Shape.rowMajor_val_one]
    show v.val = (u.val * 1 + w.val) * c + v.val
    rw [hu, hw]
    simp only [Nat.zero_mul, Nat.zero_add])

/-- A `[1, 1, c]` array broadcast to `[a, b, c]` reads, at `(p, g, v)`, the operand at `(0, 0, v)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (g : Fin b) (v : Fin c) :
    broadcastTo ⟨3, ![a, b, c]⟩ x h (ix3 p g v) = x (ix3 (0 : Fin 1) (0 : Fin 1) v) := by
  refine broadcastTo_apply x h (ix3 p g v) (ix3 (0 : Fin 1) (0 : Fin 1) v) fun ax => ?_
  match ax with
  | ⟨0, _⟩ => rfl
  | ⟨1, _⟩ => rfl
  | ⟨2, _⟩ =>
    show v.val = if c = 1 then 0 else v.val
    split
    · have := v.isLt; omega
    · rfl

/-- An `[a, 8, 8]` array flattened to `[a, 64]` reads, at `(p, k)`, the operand at group `k / 8`, field `k % 8` of row `p`. -/
theorem shapeCast_a88_a64_apply {a : ℕ} (x : (⟨3, ![a, 8, 8]⟩ : Shape).Idx → α)
    (h : (⟨3, ![a, 8, 8]⟩ : Shape).ShapeCasts ⟨2, ![a, 64]⟩) (p : Fin a) (k : Fin 64) :
    shapeCast ⟨2, ![a, 64]⟩ x h (ix2 p k)
      = x (ix3 p (⟨k.val / 8, by have := k.isLt; omega⟩ : Fin 8) (⟨k.val % 8, by omega⟩ : Fin 8)) :=
  shapeCast_apply x h _ _ (by
    have hk := k.isLt
    rw [Shape.rowMajor_val_three, Shape.rowMajor_val_two]
    show (p.val * 8 + k.val / 8) * 8 + k.val % 8 = p.val * 64 + k.val
    omega)

end Idealize.ShloMosaic.ValueIdx

end
-- ==== Proof.ScratchPayload.lean ====
/-
  The dequantized row block, read at an index.

  At a grid point with column coordinate zero the kernel body computes, from the point's `[1024, 8]` blocks of weight words
  and scales and its `[1024, 1]` block of offset words, a `[1024, 64]` block and stores it in its scratch.  Entry `(p, k)` of
  that block is the dequantized entry of the block's row `p` at group `k / 8`, field `k % 8`: the scale and the weight word
  are read at `(p, k / 8)`, the offset word at `(p, 0)`; the narrowing to bf16 changes nothing over the extended reals.
-/
import proofs.«416559_j60739427501066_1_alg».proof.Proof.Gen.KernelIdeal.Skeleton
import proofs.«416559_j60739427501066_1_alg».proof.Proof.Nibbles
import proofs.«416559_j60739427501066_1_alg».proof.Proof.LibTrailingAxis
import proofs.«416559_j60739427501066_1_alg».proof.Proof.LibLayoutColumn
import Idealize.ShloMosaic.Lib.ValueLayout
import Idealize.ShloMosaic.Lib.Pipeline.Value

noncomputable section

namespace Cert.KernelIdeal.Dequant

open Cert.KernelIdeal Cert.KernelIdeal.Gen Idealize.ShloMosaic Idealize.ShloMosaic.ValueIdx Cert.Int4

/-- A lane-wise bitwise and, read at an index. -/
theorem andi_at {s : Shape} {n : ℕ} (x y : IVec s n) (i : s.Idx) : andi x y i = IntOp.andi (x i) (y i) := rfl

/-- A lane-wise arithmetic shift right on the vector unit, read at an index. -/
theorem shrsi_at {s : Shape} {n : ℕ} (x y : IVec s n) (i : s.Idx) : shrsi x y i = IntOp.shrsi .vector (x i) (y i) := rfl

/-- The per-field shift vector the body builds (a lane counter times four) holds `4·v` at `v`. -/
theorem shifts_apply (v : Fin 8) :
    muli (shapeCast S8 (iota .tc S1x8 32 [1] iota_S1x8_d1_w32) shapeCasts_S1x8_S8) (broadcast S8 4#32) (ix1 v) = shiftOf v.val := by
  show IntOp.muli (shapeCast S8 (iota .tc S1x8 32 [1] iota_S1x8_d1_w32) shapeCasts_S1x8_S8 (ix1 v)) 4#32 = _
  rw [shapeCast_1a_a_apply, iota_single_apply]
  rfl

/-- Entry `(p, k)` of the block the body stores in its scratch: the scale at `(p, k / 8)` times the difference of field
    `k % 8` of the weight word at `(p, k / 8)` and field `k / 8` of the row's offset word. -/
theorem scratch_payload_apply (w : Vec Ideal S1024x8 .i32) (s : Vec Ideal S1024x8 .f32) (o : Vec Ideal S1024x1 .i32)
    (p : Fin 1024) (k : Fin 64) :
    k0_pay1 (F := Ideal) w s o (ix2 p k)
      = dequant (s (ix2 p (⟨k.val / 8, by have := k.isLt; omega⟩ : Fin 8))) (w (ix2 p (⟨k.val / 8, by have := k.isLt; omega⟩ : Fin 8)))
          (o (ix2 p (0 : Fin 1))) (k.val / 8) (k.val % 8) := by
  unfold k0_pay1
  dsimp only
  simp only [shapeCast_self, truncf_apply, shapeCast_a88_a64_apply, mulf_apply, subf_apply, sitofp_apply, andi_at, shrsi_at,
    broadcast_apply, broadcastTo_ab1_abc_apply, shapeCast_ab_ab1_apply, broadcastTo_11c_abc_apply, shapeCast_c_11c_apply,
    broadcastTo_a1_ab_apply, shapeCast_a_a1_apply, shapeCast_a1_a_apply, broadcastTo_1b_ab_apply, shapeCast_a_1a_apply]
  rw [shifts_apply, shifts_apply]
  rfl

end Cert.KernelIdeal.Dequant

end
-- ==== Proof.KernelValue.lean ====
/-
  The kernel's result array is `Cert.Int4.result` of its argument arrays.

  THE SCRATCH INVARIANT.  After point `t` the scratch holds row block `t / 4` of the dequantized matrix.  At the points with
  `t % 4 = 0` the body stores exactly that block (the dequantized block of the point's three quantization blocks, which
  are rows `1024·(t/4) …` of their arrays); at the other points it leaves the scratch as point `t − 1` left it, and
  `(t − 1) / 4 = t / 4` there.  This is an induction on the point, in the order the grid is run.

  So at EVERY point the output block is the product of row block `t / 4` of the dequantized matrix with column block `t % 4`
  of the activation, which is block `(t / 4, t % 4)` of the result; the 32 blocks tile the `[8192, 8192]` array (entry
  `(r, c)` lies in the block of point `4·(r / 1024) + c / 2048`), so the array ends holding the result everywhere.
-/
import proofs.«416559_j60739427501066_1_alg».proof.Proof.Gen.KernelIdeal.Value
import proofs.«416559_j60739427501066_1_alg».proof.Proof.BlockReads
import proofs.«416559_j60739427501066_1_alg».proof.Proof.CasePieces
import proofs.«416559_j60739427501066_1_alg».proof.Proof.ProductPayload
import proofs.«416559_j60739427501066_1_alg».proof.Proof.ScratchPayload
import proofs.«416559_j60739427501066_1_alg».proof.Proof.Nibbles

noncomputable section

open scoped BigOperators

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx Cert.Int4

variable (m : (ℓ : Loc nD τ sig) → Buf (Elt Ideal) ℓ) (ρ : Dev nD → PrngReg)

/-- Row block `i` of the dequantized matrix: rows `1024·i …`, all 64 columns. -/
def dqRows (c : Dev nD) (i : ℕ) : FVec Ideal S1024x64 .bf16 := fun y =>
  dq (scaleArr m c) (offsetArr m c) (weightArr m c) (rowOf i (y 0)) (y 1)

/-- What the body computes from the three quantization blocks of point `t` is row block `t / 4` of the dequantized matrix. -/
theorem dequantized_block (c : Dev nD) (t : Fin cfg0.N) :
    k0_pay1 (F := Ideal) (wblk m c t) (sblk m c t) (oblk m c t) = dqRows m c (t.val / 4) := by
  funext y
  obtain ⟨p, k, rfl⟩ : ∃ (p : Fin 1024) (k : Fin 64), y = ix2 p k := ⟨y 0, y 1, eq_ix2 y⟩
  rw [Dequant.scratch_payload_apply, wblk_apply, sblk_apply, oblk_apply]
  rfl

/-- THE SCRATCH INVARIANT: after point `n` the scratch holds row block `n / 4` of the dequantized matrix. -/
theorem scratch_after (c : Dev nD) : ∀ (n : ℕ) (h : n < cfg0.N), (outsAt0 m c n h).2 = dqRows m c (n / 4) := by
  intro n
  induction n using Nat.strong_induction_on with
  | _ n ih =>
    intro h
    have hN : n < 32 := lt_of_lt_of_eq h (show cfg0.N = 32 from N_0)
    by_cases h0 : n % 4 = 0
    · rw [outsAt0_A m c ⟨n, h⟩ h0]
      dsimp only
      exact (scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (iblk m c 0 ⟨n, h⟩) (iblk m c 1 ⟨n, h⟩) (iblk m c 2 ⟨n, h⟩) (iblk m c 3 ⟨n, h⟩)).trans
        (dequantized_block m c ⟨n, h⟩)
    · rw [outsAt0_B m c ⟨n, h⟩ h0]
      dsimp only
      unfold sout0_B_0
      rw [ih (n - 1) (by omega)]
      congr 1
      omega

/-- THE OUTPUT BLOCK of point `t`: row block `t / 4` of the dequantized matrix times the point's activation block. -/
theorem out_after (c : Dev nD) (t : Fin cfg0.N) :
    (outsAt0 m c t.val t.isLt).1 = k0_pay2 (F := Ideal) (dqRows m c (t.val / 4)) (ablk m c t) := by
  have hN := point_lt t
  by_cases h0 : t.val % 4 = 0
  · rw [outsAt0_A m c t h0]
    dsimp only
    refine (out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
    exact congrArg (fun X => k0_pay2 (F := Ideal) X (ablk m c t)) (dequantized_block m c t)
  · rw [outsAt0_B m c t h0]
    dsimp only
    refine (out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2).trans ?_
    rw [scratch_after m c (t.val - 1)]
    have e : (t.val - 1) / 4 = t.val / 4 := by omega
    rw [e]

/-- The result, of the argument arrays as launched on core `c`. -/
abbrev answer (c : Dev nD) : FVec Ideal S8192x8192 .f32 :=
  result (scaleArr m c) (offsetArr m c) (weightArr m c) (actArr m c)

/-- WHAT POINT `t` WRITES BACK is block `(t / 4, t % 4)` of the result. -/
theorem flushed_eq (c : Dev nD) (t : Fin cfg0.N) :
    (dats m 0 c).flushed 4 t = ((cfg0.win 4).blk t).view.read (Elt Ideal) (answer m c) := by
  obtain ⟨-, -, -, -, -, -, -, -, e0, e1⟩ := index_facts t
  have ht := point_lt t
  rw [Value.flushed4, out_after]
  funext y
  obtain ⟨p, q, rfl⟩ : ∃ (p : Fin 1024) (q : Fin 2048), y = ix2 p q := ⟨y 0, y 1, eq_ix2 y⟩
  have hp := p.isLt
  have hq := q.isLt
  show k0_pay2 (F := Ideal) (dqRows m c (t.val / 4)) (ablk m c t) (ix2 p q) = answer m c (((cfg0.win 4).blk t).view.emb (ix2 p q))
  have e : ((cfg0.win 4).blk t).view.emb (ix2 p q) = ix2 (rowOf (t.val / 4) p) (colOf (t.val % 4) q) :=
    funext fun a => Fin.ext (by
      match a with
      | ⟨0, _⟩ => show win0_4.index t (0 : Fin 2) * 1024 + 1 * p.val = (1024 * (t.val / 4) + p.val) % 8192; rw [e0]; omega
      | ⟨1, _⟩ => show win0_4.index t (1 : Fin 2) * 2048 + 1 * q.val = (2048 * (t.val % 4) + q.val) % 8192; rw [e1]; omega)
  rw [e, product_payload_apply]
  show _ = ∑ k : Fin 64, dq (scaleArr m c) (offsetArr m c) (weightArr m c) (rowOf (t.val / 4) p) k * actArr m c (ix2 k (colOf (t.val % 4) q))
  refine Finset.sum_congr rfl fun k _ => ?_
  rw [ablk_apply]
  rfl

/-- An index of the array is in point `t`'s block iff each coordinate is in the block's range on its axis. -/
theorem mem_block (t : Fin cfg0.N) (i : S8192x8192.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v1).slice (win0_4.rect t)).set ↔ _
  rw [View.set_slice_whole, Rect.mem_set_unit]
  exact Iff.rfl

/-- THE ARRAY after the run is the result: the 32 blocks tile it. -/
theorem final (c : Dev nD) : (dats m 0 c).arrAt 4 cfg0.N = answer m c :=
  (dats m 0 c).arrAt_eq_of_cover 4 (answer m c) (fun t _ => flushed_eq m c t) fun i => by
    have h0 : (i 0).val < 8192 := (i 0).isLt
    have h1 : (i 1).val < 8192 := (i 1).isLt
    have hlt : 4 * ((i 0).val / 1024) + (i 1).val / 2048 < cfg0.N := by rw [show cfg0.N = 32 from N_0]; omega
    refine ⟨⟨4 * ((i 0).val / 1024) + (i 1).val / 2048, hlt⟩, flush0_4 _, ?_⟩
    obtain ⟨-, -, -, -, -, -, -, -, e0, e1⟩ := index_facts ⟨4 * ((i 0).val / 1024) + (i 1).val / 2048, hlt⟩
    rw [mem_block]
    intro a
    match a with
    | ⟨0, _⟩ =>
      show win0_4.index _ (0 : Fin 2) * 1024 ≤ (i 0).val ∧ (i 0).val < win0_4.index _ (0 : Fin 2) * 1024 + 1024
      rw [e0]; dsimp only; omega
    | ⟨1, _⟩ =>
      show win0_4.index _ (1 : Fin 2) * 2048 ≤ (i 1).val ∧ (i 1).val < win0_4.index _ (1 : Fin 2) * 2048 + 2048
      rw [e1]; dsimp only; omega

/-- THE RUN, read: every weakly fair execution ends with the result array at the result and the arguments unchanged. -/
theorem run : θ_run defs (onTc (τ := τ) (main (F := Ideal))) ⟨m, fun _ => 0, ρ⟩ fun r => ∀ c : Dev nD,
      r.2.mem ((c : Thread nD τ).loc main_v1) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.BlockValue

end
-- ==== Proof.ReferenceValue.lean ====
/-
  The reference computes `Cert.Int4.result` of its arguments.

  Its `[8192, 8, 8]` intermediate holds, at `(r, g, v)`, the scale at `(r, g)` times the difference of field `v` of the weight
  word at `(r, g)` and field `g` of row `r`'s offset word; the reshape to `[8192, 64]` puts `(r, g, v)` at column `8·g + v`,
  so column `k` reads group `k / 8`, field `k % 8`; and the final contraction sums the 64 columns against the activation.
  The host's arithmetic shift right and the vector unit's are the same word on 32-bit lanes.
-/
import proofs.«416559_j60739427501066_1_alg».proof.Proof.Gen.ReferenceIdeal.Read
import proofs.«416559_j60739427501066_1_alg».proof.Proof.Nibbles
import Idealize.ShloMosaic.Lib.KernelVsHost

noncomputable section

open scoped BigOperators

namespace Cert.ReferenceIdeal.RefValue

open Cert.ReferenceIdeal Cert.ReferenceIdeal.Gen Cert.ReferenceIdeal.Read Idealize.ShloMosaic Idealize.ShloMosaic.ValueIdx Cert.Int4

/-- Column `k` of row `r` reads the scale of group `k / 8` of that row, -/
theorem scale_idx (r : Fin 8192) (k : Fin 64) :
    idx_main_v22 (idx_main_v26 (idx_main_v28 (ix2 r k))) = ix2 r (⟨k.val / 8, by have := k.isLt; omega⟩ : Fin 8) := by
  have hr := r.isLt
  have hk := k.isLt
  funext a
  apply Fin.ext
  match a with
  | ⟨0, _⟩ => show (r.val * 64 + k.val) / 64 = r.val; omega
  | ⟨1, _⟩ => show (r.val * 64 + k.val) / 8 % 8 = k.val / 8; omega

/-- the weight word of the same group (its field `k % 8` is read by the shift amount `(64·r + k) % 8 = k % 8`), -/
theorem weight_idx (r : Fin 8192) (k : Fin 64) :
    idx_main_v3 (idx_main_v5 (idx_main_v28 (ix2 r k))) = ix2 r (⟨k.val / 8, by have := k.isLt; omega⟩ : Fin 8) := by
  have hr := r.isLt
  have hk := k.isLt
  funext a
  apply Fin.ext
  match a with
  | ⟨0, _⟩ => show (r.val * 64 + k.val) / 64 = r.val; omega
  | ⟨1, _⟩ => show (r.val * 64 + k.val) / 8 % 8 = k.val / 8; omega

/-- and row `r`'s offset word (its field `k / 8`: the shift amount `(64·r + k) / 8 % 8`). -/
theorem offset_idx (r : Fin 8192) (k : Fin 64) :
    idx_main_v14 (idx_main_v16 (idx_main_v23 (idx_main_v24 (idx_main_v28 (ix2 r k))))) = ix1 r := by
  have hr := r.isLt
  have hk := k.isLt
  funext a
  apply Fin.ext
  match a with
  | ⟨0, _⟩ => show (r.val * 64 + k.val) / 64 = r.val; omega

/-- THE DEQUANTIZED MATRIX of the reference at `(r, k)` is the specification's entry. -/
theorem dequantized_apply (x0 : (⟨S8192x8, .f32⟩ : BufTy).Contents (Elt Ideal)) (x1 : (⟨S8192, .i32⟩ : BufTy).Contents (Elt Ideal))
    (x2 : (⟨S8192x8, .i32⟩ : BufTy).Contents (Elt Ideal)) (r : Fin 8192) (k : Fin 64) :
    val_main_v28 (F := Ideal) x0 x1 x2 (ix2 r k) = dq x0 x1 x2 r k := by
  simp only [val_main_v28_apply, val_main_v27_apply, val_main_v26_apply, val_main_v22_apply, val_main_v25_apply,
    val_main_v10_apply, val_main_v9_apply, val_main_v7_apply, val_main_v5_apply, val_main_v3_apply, val_main_v6_apply,
    val_main_v4_apply, val_main_v2_apply, val_main_v0_apply, val_main_v1_apply, val_main_c_apply, val_main_v8_apply,
    val_main_c_0_apply, val_main_v24_apply, val_main_v23_apply, val_main_v21_apply, val_main_v20_apply, val_main_v18_apply,
    val_main_v16_apply, val_main_v14_apply, val_main_v17_apply, val_main_v15_apply, val_main_v13_apply, val_main_v11_apply,
    val_main_v12_apply, val_main_c_1_apply, val_main_v19_apply, val_main_c_2_apply]
  have hr := r.isLt
  have hk := k.isLt
  have hfield : ((ix2 r k 0).val * 64 + (ix2 r k 1).val) % 8 = k.val % 8 := by
    show (r.val * 64 + k.val) % 8 = k.val % 8
    omega
  have hgroup : ((ix2 r k 0).val * 64 + (ix2 r k 1).val) / 8 % 8 = k.val / 8 := by
    show (r.val * 64 + k.val) / 8 % 8 = k.val / 8
    omega
  simp only [scale_idx, weight_idx, offset_idx, hfield, hgroup, shrsi_unit .host .vector]
  rfl

/-- THE REFERENCE'S RESULT is the specification's. -/
theorem reference_eq_result (x0 : (⟨S8192x8, .f32⟩ : BufTy).Contents (Elt Ideal)) (x1 : (⟨S8192, .i32⟩ : BufTy).Contents (Elt Ideal))
    (x2 : (⟨S8192x8, .i32⟩ : BufTy).Contents (Elt Ideal)) (x3 : (⟨S64x8192, .f32⟩ : BufTy).Contents (Elt Ideal)) :
    val_main_v29 (F := Ideal) x0 x1 x2 x3 = result x0 x1 x2 x3 := by
  funext i
  obtain ⟨r, c, rfl⟩ : ∃ (r : Fin 8192) (c : Fin 8192), i = ix2 r c := ⟨i 0, i 1, eq_ix2 i⟩
  rw [val_main_v29_apply]
  unfold result
  refine Finset.sum_congr rfl fun k _ => ?_
  have el : lidx_main_v29 (ix2 r c) k = ix2 r k :=
    funext fun a => Fin.ext (by match a with | ⟨0, _⟩ => rfl | ⟨1, _⟩ => rfl)
  have er : ridx_main_v29 (ix2 r c) k = ix2 k c :=
    funext fun a => Fin.ext (by match a with | ⟨0, _⟩ => rfl | ⟨1, _⟩ => rfl)
  rw [el, er, dequantized_apply]

end Cert.ReferenceIdeal.RefValue

end
-- ==== Proof.lean ====
/-
  An int4 group-quantized matrix product, certified against its jnp reference over the extended reals.

  The arguments are an `[8192, 8]` array of 32-bit weight words, each packing eight 4-bit fields; an `[8192, 8]` array of scales,
  one per word; an `[8192]` vector of offset words, each packing eight 4-bit zero points, one per word of its row; and a
  `[64, 8192]` activation.  The dequantized `[8192, 64]` matrix has, at row `r` and column `k = 8·g + v`,
  `scale[r, g] · (field v of weight[r, g] − field g of offset[r])`, and the result is its product with the activation
  (`Cert.Int4.result`, Proof/Nibbles.lean).

  THE REFERENCE computes exactly that, operation by operation (Proof/ReferenceValue.lean, over the generated read of its run).

  THE KERNEL runs on an 8 × 4 grid, row by row.  At the first point of each grid row it dequantizes its 1024 rows into a
  scratch buffer (Proof/ScratchPayload.lean), and at every point it multiplies the scratch by a `[64, 2048]` block of the
  activation into a `[1024, 2048]` block of the output.  That the scratch still holds the right rows at the three later
  points of a grid row is an invariant proved by induction along the order in which the points are run; the 32 output
  blocks tile the result (Proof/KernelValue.lean).  Narrowing to bf16 is the identity over the extended reals, a product
  accumulated into zero is the plain sum, and the vector unit's arithmetic shift is the host's, so no property of the
  inputs is used: the two programs are one function of their arguments.

  The kernel's idealization rewrote no operation, so `preserves` is `True`.
-/
import proofs.«416559_j60739427501066_1_alg».proof.Defs
import proofs.«416559_j60739427501066_1_alg».proof.Proof.Gen.Kernel
import proofs.«416559_j60739427501066_1_alg».proof.Proof.Gen.Kernel.Skeleton
import proofs.«416559_j60739427501066_1_alg».proof.Proof.Gen.Kernel.Launch
import proofs.«416559_j60739427501066_1_alg».proof.Proof.Gen.Kernel.Points
import proofs.«416559_j60739427501066_1_alg».proof.Proof.Gen.Kernel.Frame
import proofs.«416559_j60739427501066_1_alg».proof.Proof.Gen.KernelIdeal
import proofs.«416559_j60739427501066_1_alg».proof.Proof.Gen.KernelIdeal.Skeleton
import proofs.«416559_j60739427501066_1_alg».proof.Proof.Gen.KernelIdeal.Launch
import proofs.«416559_j60739427501066_1_alg».proof.Proof.Gen.KernelIdeal.Points
import proofs.«416559_j60739427501066_1_alg».proof.Proof.Gen.KernelIdeal.Frame
import proofs.«416559_j60739427501066_1_alg».proof.Proof.Gen.ReferenceIdeal
import proofs.«416559_j60739427501066_1_alg».proof.Proof.Gen.Pre_finite_inputs
import proofs.«416559_j60739427501066_1_alg».proof.Proof.Gen.KernelIdeal.Value
import proofs.«416559_j60739427501066_1_alg».proof.Proof.Gen.ReferenceIdeal.Run
import proofs.«416559_j60739427501066_1_alg».proof.Proof.Gen.ReferenceIdeal.Read
import proofs.«416559_j60739427501066_1_alg».proof.Proof.KernelValue
import proofs.«416559_j60739427501066_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs, without a fault, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals, from memories agreeing on the arguments, the kernel's result array and the reference's both end
    at `Cert.Int4.result` of the arguments. -/
theorem algebraic : Cert.algebraic_KernelIdeal_ReferenceIdeal := by
  intro m ρ m' ρ' _ hagree
  refine ⟨fun c => Cert.KernelIdeal.BlockValue.answer m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.reference_eq_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
